-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x768 : Shape := ⟨2, ![2048, 768]⟩
abbrev S768x2048 : Shape := ⟨2, ![768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S768x2048 : S_.BroadcastsInDim S768x2048 (![] : Fin 0 → Fin S768x2048.rank)
  reducesTo_S768x2048_S_d0_1 : S768x2048.ReducesTo [0, 1] S_

variable [Facts]

def fn_part1 {F : FTy → Type} [FloatOps F] (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  main_v18

def fn {F : FTy → Type} [FloatOps F] (main_arg0 : FVec F S32768x2048 .f32) (main_arg1 : FVec F S2048x768 .f32) (main_arg2 : FVec F S2048x768 .f32) (main_arg3 : FVec F S768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S2048x768 .f32 := Host.absf main_arg2
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_v13 main_v16
-- ==== Kernel.lean ====
abbrev S32768x2048 : Shape := ⟨2, ![32768, 2048]⟩
abbrev S2048x768 : Shape := ⟨2, ![2048, 768]⟩
abbrev S768x2048 : Shape := ⟨2, ![768, 2048]⟩
abbrev S512x2048 : Shape := ⟨2, ![512, 2048]⟩
abbrev S2048x1536 : Shape := ⟨2, ![2048, 1536]⟩
abbrev S512x1536 : Shape := ⟨2, ![512, 1536]⟩
abbrev S512x768 : Shape := ⟨2, ![512, 768]⟩

abbrev nBuf : Space → Nat
  | .hbm => 5
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048x768, .f32⟩
  | .hbm, ⟨2, _⟩ => ⟨S2048x768, .f32⟩
  | .hbm, ⟨3, _⟩ => ⟨S768x2048, .f32⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x768, .f32⟩
  | .local _ .vmem, ⟨3, _⟩ => ⟨S2048x768, .f32⟩
  | .local _ .vmem, ⟨4, _⟩ => ⟨S768x2048, .f32⟩
  | .local _ .vmem, ⟨5, _⟩ => ⟨S512x2048, .f32⟩
  | .local _ .vmem, ⟨6, _⟩ => ⟨S512x2048, .f32⟩
  | .local _ .vmem, ⟨7, _⟩ => ⟨S2048x1536, .bf16⟩
  | .local _ .vmem, ⟨8, _⟩ => ⟨S768x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S2048x1536_S2048x768_0_0 : ∀ a, (![0, 0] : Fin 2 → Nat) a + S2048x768.size a ≤ S2048x1536.size a
  shapeCasts_S2048x768_S2048x768 : S2048x768.ShapeCasts S2048x768
  packedbf16_S2048x1536_S2048x768_0_0 : (Rect.unit (s := S2048x1536) ![0, 0] S2048x768.size inb_S2048x1536_S2048x768_0_0).PackedRows (EltTy.packing .bf16)
  inb_S2048x1536_S2048x768_0_768 : ∀ a, (![0, 768] : Fin 2 → Nat) a + S2048x768.size a ≤ S2048x1536.size a
  packedbf16_S2048x1536_S2048x768_0_768 : (Rect.unit (s := S2048x1536) ![0, 768] S2048x768.size inb_S2048x1536_S2048x768_0_768).PackedRows (EltTy.packing .bf16)
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  packedbf16_S768x2048_S768x2048_0_0 : (Rect.unit (s := S768x2048) ![0, 0] S768x2048.size inb_S768x2048_S768x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x1536_S2048x1536_0_0 : ∀ a, (![0, 0] : Fin 2 → Nat) a + S2048x1536.size a ≤ S2048x1536.size a
  h_S2048x1536 : 0 < S2048x1536.numel
  slices_S512x1536_o0_0_S512x768 : S512x1536.Slices ![0, 0] S512x768
  slices_S512x1536_o0_768_S512x768 : S512x1536.Slices ![0, 768] S512x768
  dot_S512x2048_S2048x1536_S512x1536_1_0_0_1_n_n_wf : DotDims.WF S512x2048 S2048x1536 S512x1536 [1] [0] [0] [1] [] []
  dot_S512x768_S768x2048_S512x2048_1_0_0_1_n_n_wf : DotDims.WF S512x768 S768x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .f32 = 32 ∨ (Rect.block (s := S2048x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S2048x768.size a
  hwx0_2 : ∀ i : grid0.Coords, EltTy.bits .f32 = 32 ∨ (Rect.block (s := S2048x768) S2048x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x2048.size a ≤ S768x2048.size a
  hwx0_3 : ∀ i : grid0.Coords, EltTy.bits .f32 = 32 ∨ (Rect.block (s := S768x2048) S768x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S32768x2048.size a
  hwx0_4 : ∀ i : grid0.Coords, EltTy.bits .f32 = 32 ∨ (Rect.block (s := S32768x2048) S512x2048.size (cc0_transform_4 i) (hinb0_4 i)).WholeWords (EltTy.packing .f32)

variable [Facts₀]

def dot_S512x2048_S2048x1536_S512x1536_1_0_0_1_n_n : DotDims S512x2048 S2048x1536 S512x1536 where
  lhsContracting := [1]
  rhsContracting := [0]
  lhsNonContracting := [0]
  rhsNonContracting := [1]
  lhsBatch := []
  rhsBatch := []
  wf := dot_S512x2048_S2048x1536_S512x1536_1_0_0_1_n_n_wf
def dot_S512x768_S768x2048_S512x2048_1_0_0_1_n_n : DotDims S512x768 S768x2048 S512x2048 where
  lhsContracting := [1]
  rhsContracting := [0]
  lhsNonContracting := [0]
  rhsNonContracting := [1]
  lhsBatch := []
  rhsBatch := []
  wf := dot_S512x768_S768x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x768 : Shape := ⟨2, ![2048, 768]⟩
abbrev S768x2048 : Shape := ⟨2, ![768, 2048]⟩
abbrev S32768x768 : Shape := ⟨2, ![32768, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x768, .f32⟩
  | .hbm, ⟨2, _⟩ => ⟨S2048x768, .f32⟩
  | .hbm, ⟨3, _⟩ => ⟨S768x2048, .f32⟩
  | .hbm, ⟨4, _⟩ => ⟨S32768x768, .f32⟩
  | .hbm, ⟨5, _⟩ => ⟨S32768x768, .f32⟩
  | .hbm, ⟨6, _⟩ => ⟨S32768x768, .f32⟩
  | .hbm, ⟨7, _⟩ => ⟨S32768x768, .f32⟩
  | .hbm, ⟨8, _⟩ => ⟨S_, .f32⟩
  | .hbm, ⟨9, _⟩ => ⟨S32768x768, .f32⟩
  | .hbm, ⟨10, _⟩ => ⟨S32768x768, .f32⟩
  | .hbm, ⟨11, _⟩ => ⟨S_, .f32⟩
  | .hbm, ⟨12, _⟩ => ⟨S32768x768, .f32⟩
  | .hbm, ⟨13, _⟩ => ⟨S32768x768, .f32⟩
  | .hbm, ⟨14, _⟩ => ⟨S32768x768, .f32⟩
  | .hbm, ⟨15, _⟩ => ⟨S32768x768, .f32⟩
  | .hbm, ⟨16, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S32768x768 : S_.BroadcastsInDim S32768x768 (![] : Fin 0 → Fin S32768x768.rank)
  dot_S32768x2048_S2048x768_S32768x768_1_0_0_1_n_n_wf : DotDims.WF S32768x2048 S2048x768 S32768x768 [1] [0] [0] [1] [] []
  dot_S32768x768_S768x2048_S32768x2048_1_0_0_1_n_n_wf : DotDims.WF S32768x768 S768x2048 S32768x2048 [1] [0] [0] [1] [] []

variable [Facts₀]

def dot_S32768x2048_S2048x768_S32768x768_1_0_0_1_n_n : DotDims S32768x2048 S2048x768 S32768x768 where
  lhsContracting := [1]
  rhsContracting := [0]
  lhsNonContracting := [0]
  rhsNonContracting := [1]
  lhsBatch := []
  rhsBatch := []
  wf := dot_S32768x2048_S2048x768_S32768x768_1_0_0_1_n_n_wf
def dot_S32768x768_S768x2048_S32768x2048_1_0_0_1_n_n : DotDims S32768x768 S768x2048 S32768x2048 where
  lhsContracting := [1]
  rhsContracting := [0]
  lhsNonContracting := [0]
  rhsNonContracting := [1]
  lhsBatch := []
  rhsBatch := []
  wf := dot_S32768x768_S768x2048_S32768x2048_1_0_0_1_n_n_wf

class Facts : Prop extends Facts₀ where

variable [Facts]
-- ==== Proof.GatedMlp.lean ====
/-
  The gated feed-forward map on the extended reals, entry by entry, for any number of rows.

  For a row `p` of `x` (2048 entries) and weights `wg, wu : 2048 × 768`, `wd : 768 × 2048`:

    proj x w p k     = ∑ₗ x(p, l) · w(l, k)                       the projection of row `p` on column `k`
    hidden … p k     = (g · σ(g)) · u,  g = proj x wg p k, u = proj x wu p k,  σ(g) = 1 / (1 + e^(−g))
    out … p q        = ∑ₖ hidden … p k · wd(k, q)

  Every entry of the result depends on `x` only through its own row, so a block of rows of `x` gives the same rows of
  the result (`out_congr_row`). The two projections may be taken at once against the matrix that has `wg` in its columns
  `0 … 767` and `wu` in its columns `768 … 1535` (`sideBySide`): column `k` of that product is the gate's and column
  `768 + k` the up projection's, term by term, with no law of arithmetic used.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GatedMlp

open Idealize.ShloMosaic Idealize.ShloMosaic.ValueIdx

/-- An `a × b` matrix of extended reals. -/
abbrev Mat (a b : Nat) : Type := (⟨2, ![a, b]⟩ : Shape).Idx → EReal

variable {M M' : Nat}

/-- Row `p` of `x` against column `k` of `w`. -/
def proj (x : Mat M 2048) (w : Mat 2048 768) (p : Fin M) (k : Fin 768) : EReal :=
  ∑ l : Fin 2048, x (ix2 p l) * w (ix2 l k)

/-- The gated hidden entry: the gate projection times its logistic, times the up projection. -/
def hidden (x : Mat M 2048) (wg wu : Mat 2048 768) (p : Fin M) (k : Fin 768) : EReal :=
  proj x wg p k * Ideal.logistic (proj x wg p k) * proj x wu p k

/-- The result entry: the hidden row against column `q` of `wd`. -/
def out (x : Mat M 2048) (wg wu : Mat 2048 768) (wd : Mat 768 2048) (p : Fin M) (q : Fin 2048) : EReal :=
  ∑ k : Fin 768, hidden x wg wu p k * wd (ix2 k q)

/-- The result as a matrix. -/
def outMat (x : Mat M 2048) (wg wu : Mat 2048 768) (wd : Mat 768 2048) : Mat M 2048 :=
  fun i => out x wg wu wd (i 0) (i 1)

theorem outMat_apply (x : Mat M 2048) (wg wu : Mat 2048 768) (wd : Mat 768 2048) (p : Fin M) (q : Fin 2048) :
    outMat x wg wu wd (ix2 p q) = out x wg wu wd p q := rfl

/-! ## Rows -/

theorem proj_congr_row (x : Mat M 2048) (x' : Mat M' 2048) (w : Mat 2048 768) (p : Fin M) (p' : Fin M')
    (h : ∀ l : Fin 2048, x (ix2 p l) = x' (ix2 p' l)) (k : Fin 768) : proj x w p k = proj x' w p' k :=
  Finset.sum_congr rfl fun l _ => by rw [h l]

theorem hidden_congr_row (x : Mat M 2048) (x' : Mat M' 2048) (wg wu : Mat 2048 768) (p : Fin M) (p' : Fin M')
    (h : ∀ l : Fin 2048, x (ix2 p l) = x' (ix2 p' l)) (k : Fin 768) : hidden x wg wu p k = hidden x' wg wu p' k := by
  unfold hidden
  rw [proj_congr_row x x' wg p p' h k, proj_congr_row x x' wu p p' h k]

/-- A result entry is a function of its own row of `x` alone. -/
theorem out_congr_row (x : Mat M 2048) (x' : Mat M' 2048) (wg wu : Mat 2048 768) (wd : Mat 768 2048) (p : Fin M) (p' : Fin M')
    (h : ∀ l : Fin 2048, x (ix2 p l) = x' (ix2 p' l)) (q : Fin 2048) : out x wg wu wd p q = out x' wg wu wd p' q :=
  Finset.sum_congr rfl fun k _ => by rw [hidden_congr_row x x' wg wu p p' h k]

/-! ## The two weight matrices side by side -/

/-- `wg` in columns `0 … 767`, `wu` in columns `768 … 1535`, for entries of any type. -/
def sideBySide {α : Type} (wg wu : (⟨2, ![2048, 768]⟩ : Shape).Idx → α) : (⟨2, ![2048, 1536]⟩ : Shape).Idx → α := fun i =>
  if h : (i 1).val < 768 then wg (ix2 (i 0) ⟨(i 1).val, h⟩)
  else wu (ix2 (i 0) ⟨(i 1).val - 768, by have := idx2_lt1 i; omega⟩)

theorem sideBySide_left {α : Type} (wg wu : (⟨2, ![2048, 768]⟩ : Shape).Idx → α) (l : Fin 2048) (k : Fin 768) (k' : Fin 1536) (hk : k'.val = 0 + k.val) :
    sideBySide wg wu (ix2 l k') = wg (ix2 l k) := by
  have h : ((ix2 l k' : (⟨2, ![2048, 1536]⟩ : Shape).Idx) 1).val < 768 := by
    show k'.val < 768
    have := k.isLt; omega
  unfold sideBySide
  rw [dif_pos h]
  exact congrArg wg (congrArg (ix2 l) (Fin.ext (by show k'.val = k.val; omega)))

theorem sideBySide_right {α : Type} (wg wu : (⟨2, ![2048, 768]⟩ : Shape).Idx → α) (l : Fin 2048) (k : Fin 768) (k' : Fin 1536) (hk : k'.val = 768 + k.val) :
    sideBySide wg wu (ix2 l k') = wu (ix2 l k) := by
  have h : ¬ ((ix2 l k' : (⟨2, ![2048, 1536]⟩ : Shape).Idx) 1).val < 768 := by
    show ¬ k'.val < 768
    omega
  unfold sideBySide
  rw [dif_neg h]
  exact congrArg wu (congrArg (ix2 l) (Fin.ext (by show k'.val - 768 = k.val; omega)))

/-- Row `p` against column `k'` of the side-by-side matrix: the gate projection for `k' = k`. -/
theorem proj_sideBySide_left (x : Mat M 2048) (wg wu : Mat 2048 768) (p : Fin M) (k : Fin 768) (k' : Fin 1536) (hk : k'.val = 0 + k.val) :
    ∑ l : Fin 2048, x (ix2 p l) * sideBySide wg wu (ix2 l k') = proj x wg p k :=
  Finset.sum_congr rfl fun l _ => by rw [sideBySide_left wg wu l k k' hk]

/-- and the up projection for `k' = 768 + k`. -/
theorem proj_sideBySide_right (x : Mat M 2048) (wg wu : Mat 2048 768) (p : Fin M) (k : Fin 768) (k' : Fin 1536) (hk : k'.val = 768 + k.val) :
    ∑ l : Fin 2048, x (ix2 p l) * sideBySide wg wu (ix2 l k') = proj x wu p k :=
  Finset.sum_congr rfl fun l _ => by rw [sideBySide_right wg wu l k k' hk]

end Cert.GatedMlp

end
-- ==== Proof.Pieces.lean ====
/-
  What each case of the kernel body leaves in the output block and in the two scratch buffers, as pure terms.

  At the grid's first point the body stores the gate weights in columns `0 … 767` and the up weights in columns
  `768 … 1535` of the first scratch, and the down weights in the second; two stores of `2048 × 768` side by side fill
  the `2048 × 1536` scratch, and reading it back gives the side-by-side matrix of the two stored values
  (`canon_columns`: an index with column below 768 lies in the left rectangle only, another in the right one only).
  At every point the output block is the body's one payload of the row block and of what the two scratch buffers
  hold: what was just stored at the first point, what the point before left at the others.
-/
import proofs.«153331_g47691316855583_cont_8to1_c_567_12_alg».proof.Proof.Gen.KernelIdeal.Frame
import proofs.«153331_g47691316855583_cont_8to1_c_567_12_alg».proof.Proof.GatedMlp
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.ShloMosaic.ValueIdx Idealize.SL.Sem Cert.GatedMlp

variable {F : FTy → Type} [FloatOps F]

theorem hz : (![0, 0] : Fin 2 → Nat) = fun _ => 0 := funext fun a => by fin_cases a <;> rfl

/-- Two stores of `2048 × 768` at columns `0` and `768` of a `2048 × 1536` buffer leave the side-by-side matrix. -/
theorem canon_columns {Val : EltTy → Type} [∀ e, Nonempty (Val e)] {e : EltTy}
    (inbL : ∀ a, (![0, 0] : Fin 2 → Nat) a + S2048x768.size a ≤ S2048x1536.size a)
    (inbR : ∀ a, (![0, 768] : Fin 2 → Nat) a + S2048x768.size a ≤ S2048x1536.size a)
    (wL wR : S2048x768.Idx → Val e) :
    View.canon [(⟨Rect.unit (s := S2048x1536) ![0, 768] S2048x768.size inbR, wR⟩ : View.Piece Val S2048x1536 e),
                ⟨Rect.unit (s := S2048x1536) ![0, 0] S2048x768.size inbL, wL⟩] = sideBySide wL wR := by
  funext y
  obtain ⟨l, k', rfl⟩ : ∃ (l : Fin 2048) (k' : Fin 1536), y = ix2 l k' := ⟨y 0, y 1, eq_ix2 y⟩
  by_cases h : k'.val < 768
  · have hnot : ix2 l k' ∉ (Rect.unit (s := S2048x1536) ![0, 768] S2048x768.size inbR).set := by
      rw [Rect.mem_set_unit]
      intro hh
      have h1 : 768 ≤ k'.val := (hh 1).1
      omega
    have he : ix2 l k' = (Rect.unit (s := S2048x1536) ![0, 0] S2048x768.size inbL).emb (ix2 l ⟨k'.val, h⟩) :=
      funext fun a => Fin.ext (by
        match a with
        | ⟨0, _⟩ => show l.val = 0 + 1 * l.val; omega
        | ⟨1, _⟩ => show k'.val = 0 + 1 * k'.val; omega)
    refine (View.canon_cons_of_not_mem (Val := Val)
      (⟨Rect.unit (s := S2048x1536) ![0, 768] S2048x768.size inbR, wR⟩ : View.Piece Val S2048x1536 e)
      [(⟨Rect.unit (s := S2048x1536) ![0, 0] S2048x768.size inbL, wL⟩ : View.Piece Val S2048x1536 e)] hnot).trans ?_
    refine ((congrArg (View.canon [(⟨Rect.unit (s := S2048x1536) ![0, 0] S2048x768.size inbL, wL⟩ : View.Piece Val S2048x1536 e)]) he).trans
      (View.canon_cons_emb (Rect.unit (s := S2048x1536) ![0, 0] S2048x768.size inbL) wL [] (ix2 l ⟨k'.val, h⟩))).trans ?_
    exact (sideBySide_left wL wR l ⟨k'.val, h⟩ k' (Nat.zero_add _).symm).symm
  · have hk : k'.val - 768 < 768 := by have := k'.isLt; omega
    have he : ix2 l k' = (Rect.unit (s := S2048x1536) ![0, 768] S2048x768.size inbR).emb (ix2 l ⟨k'.val - 768, hk⟩) :=
      funext fun a => Fin.ext (by
        match a with
        | ⟨0, _⟩ => show l.val = 0 + 1 * l.val; omega
        | ⟨1, _⟩ => show k'.val = 768 + 1 * (k'.val - 768); omega)
    refine ((congrArg (View.canon [(⟨Rect.unit (s := S2048x1536) ![0, 768] S2048x768.size inbR, wR⟩ : View.Piece Val S2048x1536 e),
        ⟨Rect.unit (s := S2048x1536) ![0, 0] S2048x768.size inbL, wL⟩]) he).trans
      (View.canon_cons_emb (Rect.unit (s := S2048x1536) ![0, 768] S2048x768.size inbR) wR
        [(⟨Rect.unit (s := S2048x1536) ![0, 0] S2048x768.size inbL, wL⟩ : View.Piece Val S2048x1536 e)] (ix2 l ⟨k'.val - 768, hk⟩))).trans ?_
    exact (sideBySide_right wL wR l ⟨k'.val - 768, hk⟩ k' (by show k'.val = 768 + (k'.val - 768); omega)).symm

/-! ## The first point -/

/-- The first scratch after the first point: the two stored values side by side. -/
theorem sout_A_0 (c : Dev nD) (i : grid0.Coords) (arg1 : Memref sig .tc .vmem S512x2048 .f32) (harg1 : arg1.IsWhole) (arg2 : Memref sig .tc .vmem S2048x768 .f32) (harg2 : arg2.IsWhole) (arg3 : Memref sig .tc .vmem S2048x768 .f32) (harg3 : arg3.IsWhole) (arg4 : Memref sig .tc .vmem S768x2048 .f32) (harg4 : arg4.IsWhole) (arg5 : Memref sig .tc .vmem S512x2048 .f32) (harg5 : arg5.IsWhole) (arg6 : Memref sig .tc .vmem S2048x1536 .bf16) (harg6 : arg6.IsWhole) (arg7 : Memref sig .tc .vmem S768x2048 .bf16) (harg7 : arg7.IsWhole) (hc0 : cond0_0 i)
    (x0 : Vec F S512x2048 .f32) (x1 : Vec F S2048x768 .f32) (x2 : Vec F S2048x768 .f32) (x3 : Vec F S768x2048 .f32) :
    sout0_A_0 c i arg1 harg1 arg2 harg2 arg3 harg3 arg4 harg4 arg5 harg5 arg6 harg6 arg7 harg7 hc0 x0 x1 x2 x3 = sideBySide (k0_pay1 x1) (k0_pay2 x2) := by
  unfold sout0_A_0
  rw [View.read_writes_junk_eq_canon]
  unfold kernelRun0_A
  dsimp only
  sl_unfold_words
  simp only [View.readAt_eq_ld, harg2.read_unread, harg3.read_unread, View.ld_unit_zero (S := S2048x768) hz]
  exact canon_columns _ _ _ _

/-- The second scratch after the first point: the stored value. -/
theorem sout_A_1 (c : Dev nD) (i : grid0.Coords) (arg1 : Memref sig .tc .vmem S512x2048 .f32) (harg1 : arg1.IsWhole) (arg2 : Memref sig .tc .vmem S2048x768 .f32) (harg2 : arg2.IsWhole) (arg3 : Memref sig .tc .vmem S2048x768 .f32) (harg3 : arg3.IsWhole) (arg4 : Memref sig .tc .vmem S768x2048 .f32) (harg4 : arg4.IsWhole) (arg5 : Memref sig .tc .vmem S512x2048 .f32) (harg5 : arg5.IsWhole) (arg6 : Memref sig .tc .vmem S2048x1536 .bf16) (harg6 : arg6.IsWhole) (arg7 : Memref sig .tc .vmem S768x2048 .bf16) (harg7 : arg7.IsWhole) (hc0 : cond0_0 i)
    (x0 : Vec F S512x2048 .f32) (x1 : Vec F S2048x768 .f32) (x2 : Vec F S2048x768 .f32) (x3 : Vec F S768x2048 .f32) :
    sout0_A_1 c i arg1 harg1 arg2 harg2 arg3 harg3 arg4 harg4 arg5 harg5 arg6 harg6 arg7 harg7 hc0 x0 x1 x2 x3 = k0_pay3 x3 := by
  unfold sout0_A_1
  rw [View.read_writes_junk_eq_canon]
  unfold kernelRun0_A
  dsimp only
  sl_unfold_words
  rw [View.canon_unit_zero hz]
  simp only [View.readAt_eq_ld, harg4.read_unread, View.ld_unit_zero (S := S768x2048) hz]

/-- The output block after the first point: the payload of the row block and of what was just stored. -/
theorem out_A (c : Dev nD) (i : grid0.Coords) (arg1 : Memref sig .tc .vmem S512x2048 .f32) (harg1 : arg1.IsWhole) (arg2 : Memref sig .tc .vmem S2048x768 .f32) (harg2 : arg2.IsWhole) (arg3 : Memref sig .tc .vmem S2048x768 .f32) (harg3 : arg3.IsWhole) (arg4 : Memref sig .tc .vmem S768x2048 .f32) (harg4 : arg4.IsWhole) (arg5 : Memref sig .tc .vmem S512x2048 .f32) (harg5 : arg5.IsWhole) (arg6 : Memref sig .tc .vmem S2048x1536 .bf16) (harg6 : arg6.IsWhole) (arg7 : Memref sig .tc .vmem S768x2048 .bf16) (harg7 : arg7.IsWhole) (hc0 : cond0_0 i)
    (x0 : Vec F S512x2048 .f32) (x1 : Vec F S2048x768 .f32) (x2 : Vec F S2048x768 .f32) (x3 : Vec F S768x2048 .f32) :
    out0_A_4 c i arg1 harg1 arg2 harg2 arg3 harg3 arg4 harg4 arg5 harg5 arg6 harg6 arg7 harg7 hc0 x0 x1 x2 x3 = k0_pay4 x0 (sideBySide (k0_pay1 x1) (k0_pay2 x2)) (k0_pay3 x3) := by
  unfold out0_A_4
  rw [View.read_writes_junk_eq_canon]
  unfold kernelRun0_A
  dsimp only
  sl_unfold_words
  rw [View.canon_unit_zero hz]
  simp only [View.readAt_eq_ld, harg1.read_unread, harg2.read_unread, harg3.read_unread, harg4.read_unread,
    View.ld_unit_zero (S := S512x2048) hz, View.ld_unit_zero (S := S2048x768) hz, View.ld_unit_zero (S := S768x2048) hz,
    View.readCov_unit_zero (S := S768x2048) _ hz]
  rw [View.readCov_eq_canon', canon_columns]
  exact congrArg (fun w => k0_pay4 x0 w (k0_pay3 x3)) (View.ld_unit_zero (S := S2048x1536) hz _ _)

/-! ## Every later point -/

/-- The output block after a later point: the payload of the row block and of what the scratch buffers held. -/
theorem out_B (c : Dev nD) (i : grid0.Coords) (arg1 : Memref sig .tc .vmem S512x2048 .f32) (harg1 : arg1.IsWhole) (arg2 : Memref sig .tc .vmem S2048x768 .f32) (harg2 : arg2.IsWhole) (arg3 : Memref sig .tc .vmem S2048x768 .f32) (harg3 : arg3.IsWhole) (arg4 : Memref sig .tc .vmem S768x2048 .f32) (harg4 : arg4.IsWhole) (arg5 : Memref sig .tc .vmem S512x2048 .f32) (harg5 : arg5.IsWhole) (arg6 : Memref sig .tc .vmem S2048x1536 .bf16) (harg6 : arg6.IsWhole) (arg7 : Memref sig .tc .vmem S768x2048 .bf16) (harg7 : arg7.IsWhole) (hc0 : ¬cond0_0 i)
    (x0 : Vec F S512x2048 .f32) (x1 : Vec F S2048x768 .f32) (x2 : Vec F S2048x768 .f32) (x3 : Vec F S768x2048 .f32) (xs0 : Vec F S2048x1536 .bf16) (xs1 : Vec F S768x2048 .bf16) :
    out0_B_4 c i arg1 harg1 arg2 harg2 arg3 harg3 arg4 harg4 arg5 harg5 arg6 harg6 arg7 harg7 hc0 x0 x1 x2 x3 xs0 xs1 = k0_pay4 x0 xs0 xs1 := by
  unfold out0_B_4
  rw [View.read_writes_junk_eq_canon]
  unfold kernelRun0_B
  dsimp only
  sl_unfold_words
  rw [View.canon_unit_zero hz]
  simp only [View.readAt_eq_ld, harg1.read_unread, harg6.read_unread, harg7.read_unread,
    View.ld_unit_zero (S := S512x2048) hz, View.ld_unit_zero (S := S2048x1536) hz, View.ld_unit_zero (S := S768x2048) hz]

end Cert.KernelIdeal.Pieces

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Fused.lean ====
/-
  Two ways of computing the gated feed-forward map, each read at an entry `(p, q)`.

  * `fused_apply`: one matrix product of `x` against the gate and up weights laid side by side, the product cut into
    its left and right halves, the left half times its logistic times the right half, and that against `wd`. Column
    `k` of the left half is the gate projection and column `k` of the right half the up projection
    (`left_half`, `right_half`), so the entry is `out x wg wu wd p q`.
  * `separate_apply`: the gate and up projections as two matrix products, the gate `v ↦ v · (1 / (1 + e^(−v)))`
    spelt with a negation, an exponential, a sum and a quotient (`hostGate`, which is `v · σ(v)` entry by entry because
    the word `0x3F800000` is the number one and `σ` is by definition that quotient), the product with the up
    projection, and that against `wd`.

  A change of float format is the identity on the extended reals and a product into the zero word is the plain sum, so
  both are the same finite sums of the same terms in the same order.
-/
import Idealize.ShloMosaic.Lib.IdealHost
import proofs.«153331_g47691316855583_cont_8to1_c_567_12_alg».proof.Proof.LibRowwise
import proofs.«153331_g47691316855583_cont_8to1_c_567_12_alg».proof.Proof.GatedMlp

noncomputable section

namespace Cert.GatedMlp

open Idealize.ShloMosaic Idealize.ShloMosaic.ValueIdx Cert.Lib.Rowwise

variable {M : Nat}

/-! ## The fused computation -/

/-- `x` (its format changed, which is the identity) against any `2048 × 1536` matrix into the zero word, at `(p, k')`. -/
theorem sideProd_apply (prec1 : Option ContractPrecision)
    (x : FVec Ideal ⟨2, ![M, 2048]⟩ .f32) (w : FVec Ideal ⟨2, ![2048, 1536]⟩ .bf16)
    (hx : (FTy.bf16).bits < (FTy.f32).bits) (p : Fin M) (k' : Fin 1536) :
    matmul (DotDims.plain M 2048 1536) prec1 (truncf .bf16 x hx) w (constant ⟨2, ![M, 1536]⟩ .f32 0x00000000#32) (ix2 p k')
      = ∑ l : Fin 2048, x (ix2 p l) * w (ix2 l k') :=
  plain_matmul_zero_apply prec1 (truncf .bf16 x hx) w p k'

/-- The left half of the product against the side-by-side matrix is the gate projection. -/
theorem left_half (prec1 : Option ContractPrecision)
    (x : FVec Ideal ⟨2, ![M, 2048]⟩ .f32) (w : FVec Ideal ⟨2, ![2048, 1536]⟩ .bf16)
    (wg wu : Mat 2048 768) (hw : w = sideBySide wg wu)
    (hx : (FTy.bf16).bits < (FTy.f32).bits)
    (h7 : (⟨2, ![M, 1536]⟩ : Shape).Slices ![0, 0] ⟨2, ![M, 768]⟩) (p : Fin M) (k : Fin 768) :
    extractStridedSlice ⟨2, ![M, 768]⟩ ![0, 0]
      (matmul (DotDims.plain M 2048 1536) prec1 (truncf .bf16 x hx) w (constant ⟨2, ![M, 1536]⟩ .f32 0x00000000#32)) h7 (ix2 p k)
      = proj x wg p k := by
  have hk : (⟨k.val, by have := k.isLt; omega⟩ : Fin 1536).val = 0 + k.val := (Nat.zero_add _).symm
  refine (slice2_axis1_apply 0 _ h7 p k ⟨k.val, by have := k.isLt; omega⟩ hk).trans ?_
  rw [sideProd_apply, hw]
  exact proj_sideBySide_left x wg wu p k _ hk

/-- The right half is the up projection. -/
theorem right_half (prec1 : Option ContractPrecision)
    (x : FVec Ideal ⟨2, ![M, 2048]⟩ .f32) (w : FVec Ideal ⟨2, ![2048, 1536]⟩ .bf16)
    (wg wu : Mat 2048 768) (hw : w = sideBySide wg wu)
    (hx : (FTy.bf16).bits < (FTy.f32).bits)
    (h8 : (⟨2, ![M, 1536]⟩ : Shape).Slices ![0, 768] ⟨2, ![M, 768]⟩) (p : Fin M) (k : Fin 768) :
    extractStridedSlice ⟨2, ![M, 768]⟩ ![0, 768]
      (matmul (DotDims.plain M 2048 1536) prec1 (truncf .bf16 x hx) w (constant ⟨2, ![M, 1536]⟩ .f32 0x00000000#32)) h8 (ix2 p k)
      = proj x wu p k := by
  have hk : (⟨768 + k.val, by have := k.isLt; omega⟩ : Fin 1536).val = 768 + k.val := rfl
  refine (slice2_axis1_apply 768 _ h8 p k ⟨768 + k.val, by have := k.isLt; omega⟩ hk).trans ?_
  rw [sideProd_apply, hw]
  exact proj_sideBySide_right x wg wu p k _ hk

/-- The fused computation at `(p, q)`: `v6` the side-by-side product, `v7` and `v8` its left and right halves. -/
theorem fused_apply
    (D1 : DotDims ⟨2, ![M, 2048]⟩ ⟨2, ![2048, 1536]⟩ ⟨2, ![M, 1536]⟩) (hD1 : D1 = DotDims.plain M 2048 1536)
    (D2 : DotDims ⟨2, ![M, 768]⟩ ⟨2, ![768, 2048]⟩ ⟨2, ![M, 2048]⟩) (hD2 : D2 = DotDims.plain M 768 2048)
    (prec1 prec2 : Option ContractPrecision)
    (x : FVec Ideal ⟨2, ![M, 2048]⟩ .f32) (w : FVec Ideal ⟨2, ![2048, 1536]⟩ .bf16) (wd : FVec Ideal ⟨2, ![768, 2048]⟩ .bf16)
    (wg wu : Mat 2048 768) (hw : w = sideBySide wg wu)
    (hx : (FTy.bf16).bits < (FTy.f32).bits)
    (h7 : (⟨2, ![M, 1536]⟩ : Shape).Slices ![0, 0] ⟨2, ![M, 768]⟩)
    (h8 : (⟨2, ![M, 1536]⟩ : Shape).Slices ![0, 768] ⟨2, ![M, 768]⟩)
    (p : Fin M) (q : Fin 2048)
    (v6 : FVec Ideal ⟨2, ![M, 1536]⟩ .f32)
    (hv6 : v6 = matmul D1 prec1 (truncf .bf16 x hx) w (constant ⟨2, ![M, 1536]⟩ .f32 0x00000000#32))
    (v7 v8 : FVec Ideal ⟨2, ![M, 768]⟩ .f32)
    (hv7 : v7 = extractStridedSlice ⟨2, ![M, 768]⟩ ![0, 0] v6 h7)
    (hv8 : v8 = extractStridedSlice ⟨2, ![M, 768]⟩ ![0, 768] v6 h8) :
    matmul D2 prec2 (truncf .bf16 (mulf (mulf v7 (logistic v7)) v8) hx) wd (constant ⟨2, ![M, 2048]⟩ .f32 0x00000000#32) (ix2 p q)
      = out x wg wu wd p q := by
  subst hD1 hD2
  have hg : ∀ k : Fin 768, v7 (ix2 p k) = proj x wg p k := fun k => by
    rw [hv7, hv6]; exact left_half prec1 x w wg wu hw hx h7 p k
  have hu : ∀ k : Fin 768, v8 (ix2 p k) = proj x wu p k := fun k => by
    rw [hv8, hv6]; exact right_half prec1 x w wg wu hw hx h8 p k
  refine (plain_matmul_zero_apply prec2 _ wd p q).trans ?_
  unfold out
  refine Finset.sum_congr rfl fun k _ => ?_
  refine congrArg (· * wd (ix2 k q)) ?_
  show v7 (ix2 p k) * Ideal.logistic (v7 (ix2 p k)) * v8 (ix2 p k) = hidden x wg wu p k
  rw [hg k, hu k]
  rfl

/-! ## The three separate products -/

/-- The host's product with the plain record, at `(p, q)`: the sum over the contracted coordinate. -/
theorem plain_dotGeneral_apply {A K N : Nat} {φ₁ φ₂ : FTy} (prec : Option ContractPrecision) (a : FVec Ideal ⟨2, ![A, K]⟩ φ₁)
    (b : FVec Ideal ⟨2, ![K, N]⟩ φ₂) (p : Fin A) (q : Fin N) :
    FloatOps.dotGeneral (DotDims.plain A K N) prec .single a b (ix2 p q) = ∑ k : Fin K, a (ix2 p k) * b (ix2 k q) :=
  (Ideal.dotGeneral_apply (DotDims.plain A K N) prec .single a b (ix2 p q)).trans
    ((Ideal.matmul_constant_zero_apply (DotDims.plain A K N) prec a b (ix2 p q)).symm.trans
      (plain_matmul_zero_apply prec a b p q))

/-- The gate spelt with a negation, an exponential, a sum and a quotient: `v · (1 / (1 + e^(−v)))`, the ones the word
    `0x3F800000` spread over the shape. -/
def hostGate {s : Shape} (hb : (⟨0, ![]⟩ : Shape).BroadcastsInDim s ![]) (v : FVec Ideal s .f32) : FVec Ideal s .f32 :=
  mulf v (Host.divf (broadcastInDim s ![] hb (constant ⟨0, ![]⟩ .f32 0x3F800000#32))
    (addf (broadcastInDim s ![] hb (constant ⟨0, ![]⟩ .f32 0x3F800000#32)) (Host.exp (Host.negf v))))

/-- Entry by entry it is `v · σ(v)`. -/
theorem hostGate_apply {s : Shape} (hb : (⟨0, ![]⟩ : Shape).BroadcastsInDim s ![]) (v : FVec Ideal s .f32) (i : s.Idx) :
    hostGate hb v i = v i * Ideal.logistic (v i) := by
  unfold hostGate
  rw [mulf_apply, hostDivf_apply, addf_apply, broadcastInDim_scalar_apply, constant_apply, Ideal.ofBits_one_f32]
  rfl

/-- The three separate products at `(p, q)`, for a gate `s` with `s(v)(i) = v(i) · σ(v(i))`. -/
theorem separate_apply
    (D0 : DotDims ⟨2, ![M, 2048]⟩ ⟨2, ![2048, 768]⟩ ⟨2, ![M, 768]⟩) (hD0 : D0 = DotDims.plain M 2048 768)
    (D3 : DotDims ⟨2, ![M, 768]⟩ ⟨2, ![768, 2048]⟩ ⟨2, ![M, 2048]⟩) (hD3 : D3 = DotDims.plain M 768 2048)
    (prec0 prec3 : Option ContractPrecision)
    (x : FVec Ideal ⟨2, ![M, 2048]⟩ .f32) (wg wu : FVec Ideal ⟨2, ![2048, 768]⟩ .f32) (wd : FVec Ideal ⟨2, ![768, 2048]⟩ .f32)
    (s : FVec Ideal ⟨2, ![M, 768]⟩ .f32 → FVec Ideal ⟨2, ![M, 768]⟩ .f32)
    (hs : ∀ v i, s v i = v i * Ideal.logistic (v i))
    (p : Fin M) (q : Fin 2048) :
    Host.dotGeneral D3 prec3 (mulf (s (Host.dotGeneral D0 prec0 x wg)) (Host.dotGeneral D0 prec0 x wu)) wd (ix2 p q)
      = out x wg wu wd p q := by
  subst hD0 hD3
  refine (plain_dotGeneral_apply prec3 _ wd p q).trans ?_
  unfold out
  refine Finset.sum_congr rfl fun k _ => ?_
  refine congrArg (· * wd (ix2 k q)) ?_
  show s _ (ix2 p k) * _ = hidden x wg wu p k
  rw [hs]
  show FloatOps.dotGeneral (DotDims.plain M 2048 768) prec0 .single x wg (ix2 p k)
      * Ideal.logistic (FloatOps.dotGeneral (DotDims.plain M 2048 768) prec0 .single x wg (ix2 p k))
      * FloatOps.dotGeneral (DotDims.plain M 2048 768) prec0 .single x wu (ix2 p k) = _
  rw [plain_dotGeneral_apply, plain_dotGeneral_apply]
  rfl

end Cert.GatedMlp

end
-- ==== Proof.Payloads.lean ====
/-
  The kernel body's payloads read on the extended reals.

  The three weight copies change the float format and re-cast a shape to itself: on the extended reals each is the
  identity. The output payload, at entry `(p, q)` of the block, is the gated feed-forward entry `out x wg wu wd p q` of the
  row block `x` whenever the first scratch holds `wg` and `wu` side by side: the fused computation of `fused_apply`,
  with both printed dimension records the plain `[M, K] × [K, N]` ones.
-/
import proofs.«153331_g47691316855583_cont_8to1_c_567_12_alg».proof.Proof.Gen.KernelIdeal.Skeleton
import proofs.«153331_g47691316855583_cont_8to1_c_567_12_alg».proof.Proof.Fused

noncomputable section

namespace Cert.KernelIdeal.Payloads

open Cert.KernelIdeal Cert.KernelIdeal.Gen Idealize.ShloMosaic Idealize.ShloMosaic.ValueIdx Cert.GatedMlp Cert.Lib.Rowwise

/-- The gate weights' copy is the identity. -/
theorem pay1_eq (v : Vec Ideal S2048x768 .f32) : k0_pay1 (F := Ideal) v = v := by
  unfold k0_pay1
  exact shapeCast_self _ _

/-- The up weights' copy is the identity. -/
theorem pay2_eq (v : Vec Ideal S2048x768 .f32) : k0_pay2 (F := Ideal) v = v := by
  unfold k0_pay2
  exact shapeCast_self _ _

/-- The down weights' copy is the identity. -/
theorem pay3_eq (v : Vec Ideal S768x2048 .f32) : k0_pay3 (F := Ideal) v = v := by
  unfold k0_pay3
  exact shapeCast_self _ _

/-- The output payload at `(p, q)`. -/
theorem pay4_apply (x : Vec Ideal S512x2048 .f32) (w : Vec Ideal S2048x1536 .bf16) (wd : Vec Ideal S768x2048 .bf16)
    (wg wu : Mat 2048 768) (hw : w = sideBySide wg wu) (p : Fin 512) (q : Fin 2048) :
    k0_pay4 (F := Ideal) x w wd (ix2 p q) = out x wg wu wd p q := by
  unfold k0_pay4
  exact fused_apply dot_S512x2048_S2048x1536_S512x1536_1_0_0_1_n_n (eq_plain _ rfl rfl rfl rfl rfl rfl)
    dot_S512x768_S768x2048_S512x2048_1_0_0_1_n_n (eq_plain _ rfl rfl rfl rfl rfl rfl) none none x w wd wg wu hw
    _ _ _ p q _ rfl _ _ rfl rfl

end Cert.KernelIdeal.Payloads

end
-- ==== Proof.KernelValue.lean ====
/-
  What the idealized kernel's run leaves in its result array.

  The grid has 64 points; point `t` stages rows `512·t … 512·t + 511` of `x` and of the result, and the three weight
  arrays whole at every point. The first point copies the weights into the two scratch buffers (gate and up side by
  side, down alone), and no later point stores into them: by induction on the point, after every point the scratch
  buffers hold exactly that (`scratch_inv`). So at every point the output block is the gated feed-forward map of the
  staged row block against the three weight arrays (`out_apply`), which, an entry depending on its own row of `x` only, is
  rows `512·t …` of the map of the whole of `x` (`flushed_eq`). The 64 blocks cover the result array (row `r` lies in
  block `r / 512`), so the array ends holding the map of the arguments, every entry (`final`, `run`).
-/
import proofs.«153331_g47691316855583_cont_8to1_c_567_12_alg».proof.Proof.Gen.KernelIdeal.Value
import proofs.«153331_g47691316855583_cont_8to1_c_567_12_alg».proof.Proof.Pieces
import proofs.«153331_g47691316855583_cont_8to1_c_567_12_alg».proof.Proof.Payloads

noncomputable section

namespace Cert.KernelIdeal.RunValue

open Cert.KernelIdeal Cert.KernelIdeal.Gen Idealize.ShloMosaic Idealize.ShloMosaic.TcCoe Idealize.SL.Sem
open Idealize.ShloMosaic.ValueIdx Cert.GatedMlp
open Idealize.ShloMosaic.Pipeline (Dat)

variable (m : (ℓ : Loc nD τ sig) → Buf (Elt Ideal) ℓ) (ρ : Dev nD → PrngReg)

/-! ## The arrays and the staged blocks, by their literal types -/

/-- The argument arrays as the region finds them. -/
abbrev X (c : Dev nD) : Mat 32768 2048 := m ((c : Thread nD τ).loc main_arg0)
abbrev Wg (c : Dev nD) : Mat 2048 768 := m ((c : Thread nD τ).loc main_arg1)
abbrev Wu (c : Dev nD) : Mat 2048 768 := m ((c : Thread nD τ).loc main_arg2)
abbrev Wd (c : Dev nD) : Mat 768 2048 := m ((c : Thread nD τ).loc main_arg3)

/-- The blocks point `t` stages. -/
abbrev xblk (c : Dev nD) (t : Fin cfg0.N) : Mat 512 2048 := iblk m c 0 t
abbrev gblk (c : Dev nD) (t : Fin cfg0.N) : Mat 2048 768 := iblk m c 1 t
abbrev ublk (c : Dev nD) (t : Fin cfg0.N) : Mat 2048 768 := iblk m c 2 t
abbrev dblk (c : Dev nD) (t : Fin cfg0.N) : Mat 768 2048 := iblk m c 3 t

/-- The result: the gated feed-forward map of the arguments. -/
abbrev G (c : Dev nD) : Mat 32768 2048 := outMat (X m c) (Wg m c) (Wu m c) (Wd m c)

/-- The printed index maps over the grid: the row-block windows move with the point, the weight windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `512·t + p` of the array. -/
def row (t : Fin cfg0.N) (p : Fin 512) : Fin 32768 :=
  ⟨512 * t.val + p.val, by have := lt_of_lt_of_eq t.isLt (show cfg0.N = 64 from N_0); have := p.isLt; omega⟩

theorem xblk_apply (c : Dev nD) (t : Fin cfg0.N) (p : Fin 512) (l : Fin 2048) :
    xblk m c t (ix2 p l) = X m c (ix2 (row t p) l) := by
  show V m c main_arg0 (((cfg0.win 0).blk t).view.emb (ix2 p l)) = V m c main_arg0 (ix2 (row t p) l)
  refine congrArg _ ?_
  obtain ⟨e0, e1, -⟩ := idx_facts t
  funext a; apply Fin.ext
  match a with
  | ⟨0, _⟩ => show win0_0.index t (0 : Fin 2) * 512 + 1 * p.val = 512 * t.val + p.val; omega
  | ⟨1, _⟩ => show win0_0.index t (1 : Fin 2) * 2048 + 1 * l.val = l.val; omega

/-- The weight windows stage their arrays whole. -/
theorem gblk_eq (c : Dev nD) (t : Fin cfg0.N) : gblk m c t = Wg m c := by
  funext y
  show V m c main_arg1 (((cfg0.win 1).blk t).view.emb y) = V m c main_arg1 y
  refine congrArg _ ?_
  obtain ⟨-, -, e0, e1, -⟩ := idx_facts t
  funext a; apply Fin.ext
  match a with
  | ⟨0, _⟩ => show win0_1.index t (0 : Fin 2) * 2048 + 1 * (y 0).val = (y 0).val; omega
  | ⟨1, _⟩ => show win0_1.index t (1 : Fin 2) * 768 + 1 * (y 1).val = (y 1).val; omega

theorem ublk_eq (c : Dev nD) (t : Fin cfg0.N) : ublk m c t = Wu m c := by
  funext y
  show V m c main_arg2 (((cfg0.win 2).blk t).view.emb y) = V m c main_arg2 y
  refine congrArg _ ?_
  obtain ⟨-, -, -, -, e0, e1, -⟩ := idx_facts t
  funext a; apply Fin.ext
  match a with
  | ⟨0, _⟩ => show win0_2.index t (0 : Fin 2) * 2048 + 1 * (y 0).val = (y 0).val; omega
  | ⟨1, _⟩ => show win0_2.index t (1 : Fin 2) * 768 + 1 * (y 1).val = (y 1).val; omega

theorem dblk_eq (c : Dev nD) (t : Fin cfg0.N) : dblk m c t = Wd m c := by
  funext y
  show V m c main_arg3 (((cfg0.win 3).blk t).view.emb y) = V m c main_arg3 y
  refine congrArg _ ?_
  obtain ⟨-, -, -, -, -, -, e0, e1, -⟩ := idx_facts t
  funext a; apply Fin.ext
  match a with
  | ⟨0, _⟩ => show win0_3.index t (0 : Fin 2) * 768 + 1 * (y 0).val = (y 0).val; omega
  | ⟨1, _⟩ => show win0_3.index t (1 : Fin 2) * 2048 + 1 * (y 1).val = (y 1).val; omega

/-! ## The first point, and the scratch buffers ever after -/

/-- At the first point: the output block and the two scratch buffers. -/
theorem outs_first (c : Dev nD) (t : Fin cfg0.N) (h0 : t.val % 64 = 0) :
    outsAt0 m c t.val t.isLt
      = (k0_pay4 (F := Ideal) (xblk m c t) (sideBySide (Wg m c) (Wu m c)) (Wd m c), sideBySide (Wg m c) (Wu m c), Wd m c) := by
  rw [outsAt0_A m c t h0]
  refine Prod.ext ?_ (Prod.ext ?_ ?_)
  · dsimp only
    refine (Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans ?_
    rw [Payloads.pay1_eq, Payloads.pay2_eq, Payloads.pay3_eq]
    show k0_pay4 (F := Ideal) (xblk m c t) (sideBySide (gblk m c t) (ublk m c t)) (dblk m c t) = _
    rw [gblk_eq, ublk_eq, dblk_eq]
  · dsimp only
    refine (Pieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans ?_
    rw [Payloads.pay1_eq, Payloads.pay2_eq]
    show sideBySide (gblk m c t) (ublk m c t) = _
    rw [gblk_eq, ublk_eq]
  · dsimp only
    refine (Pieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans ?_
    rw [Payloads.pay3_eq]
    exact dblk_eq m c t

/-- After every point the scratch buffers hold the weights: gate and up side by side, and down. -/
theorem scratch_inv (c : Dev nD) : ∀ (n : ℕ) (hn : n < cfg0.N),
    (outsAt0 m c n hn).2.1 = sideBySide (Wg m c) (Wu m c) ∧ (outsAt0 m c n hn).2.2 = Wd m c
  | 0, hn => by
    have e := outs_first m c ⟨0, hn⟩ (Nat.zero_mod _)
    exact ⟨congrArg (fun o => o.2.1) e, congrArg (fun o => o.2.2) e⟩
  | n + 1, hn => by
    have hN : n + 1 < 64 := lt_of_lt_of_eq hn (show cfg0.N = 64 from N_0)
    have h0 : ¬ ((⟨n + 1, hn⟩ : Fin cfg0.N).val % 64 = 0) := by show ¬ ((n + 1) % 64 = 0); omega
    have e := outsAt0_B m c ⟨n + 1, hn⟩ h0
    have ih := scratch_inv c n (Nat.lt_of_succ_lt hn)
    constructor
    · refine (congrArg (fun o => o.2.1) e).trans ?_
      dsimp only
      unfold sout0_B_0
      exact ih.1
    · refine (congrArg (fun o => o.2.2) e).trans ?_
      dsimp only
      unfold sout0_B_1
      exact ih.2

/-! ## The output block at every point -/

theorem out_apply (c : Dev nD) (t : Fin cfg0.N) (p : Fin 512) (q : Fin 2048) :
    (outsAt0 m c t.val t.isLt).1 (ix2 p q) = out (xblk m c t) (Wg m c) (Wu m c) (Wd m c) p q := by
  by_cases h0 : t.val % 64 = 0
  · rw [outs_first m c t h0]
    exact Payloads.pay4_apply _ _ _ _ _ rfl p q
  · have hi := scratch_inv m c (t.val - 1) (Nat.lt_of_le_of_lt (Nat.sub_le _ _) t.isLt)
    rw [outsAt0_B m c t h0]
    dsimp only
    refine (congrFun (Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1
      (outsAt0 m c (t.val - 1) (Nat.lt_of_le_of_lt (Nat.sub_le _ _) t.isLt)).2.2) (ix2 p q)).trans ?_
    rw [hi.1, hi.2]
    exact Payloads.pay4_apply _ _ _ _ _ rfl p q

/-! ## From blocks to the array -/

/-- What point `t` writes back is block `t` of the map of the arguments. -/
theorem flushed_eq (c : Dev nD) (t : Fin cfg0.N) :
    (dats m 0 c).flushed 4 t = ((cfg0.win 4).blk t).view.read (Elt Ideal) (G m c) := by
  rw [Value.flushed4]
  funext j
  obtain ⟨p, q, rfl⟩ : ∃ (p : Fin 512) (q : Fin 2048), j = ix2 p q := ⟨j 0, j 1, eq_ix2 j⟩
  show (outsAt0 m c t.val t.isLt).1 (ix2 p q) = G m c (((cfg0.win 4).blk t).view.emb (ix2 p q))
  have he : ((cfg0.win 4).blk t).view.emb (ix2 p q) = ix2 (row t p) q := by
    obtain ⟨-, -, -, -, -, -, -, -, e0, e1⟩ := idx_facts t
    funext a; apply Fin.ext
    match a with
    | ⟨0, _⟩ => show win0_4.index t (0 : Fin 2) * 512 + 1 * p.val = 512 * t.val + p.val; omega
    | ⟨1, _⟩ => show win0_4.index t (1 : Fin 2) * 2048 + 1 * q.val = q.val; omega
  rw [he, out_apply]
  exact out_congr_row _ _ _ _ _ p (row t p) (fun l => xblk_apply m c t p l) q

/-- An index of the array is in point `t`'s block iff each coordinate is in the block's range on its axis. -/
theorem mem_blk (t : Fin cfg0.N) (i : S32768x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v0).slice (win0_4.rect t)).set ↔ _
  rw [View.set_slice_whole, Rect.mem_set_unit]
  exact Iff.rfl

/-- Every index is in some point's block: row `r` in block `r / 512`. -/
theorem cover (i : S32768x2048.Idx) : ∃ t : Fin cfg0.N, (cfg0.win 4).flush t = true ∧ i ∈ ((cfg0.win 4).blk t).view.set := by
  have hi0 : (i 0).val < 32768 := (i 0).isLt
  have hi1 : (i 1).val < 2048 := (i 1).isLt
  have ht : (i 0).val / 512 < cfg0.N := lt_of_lt_of_eq (by omega : (i 0).val / 512 < 64) (show cfg0.N = 64 from N_0).symm
  obtain ⟨-, -, -, -, -, -, -, -, e0, e1⟩ := idx_facts ⟨(i 0).val / 512, ht⟩
  refine ⟨⟨(i 0).val / 512, ht⟩, flush0_4 _, ?_⟩
  rw [mem_blk]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    have e0' : win0_4.index ⟨(i 0).val / 512, ht⟩ (0 : Fin 2) = (i 0).val / 512 := e0
    omega
  | ⟨1, _⟩ =>
    show win0_4.index ⟨(i 0).val / 512, ht⟩ (1 : Fin 2) * 2048 ≤ (i 1).val ∧ (i 1).val < win0_4.index ⟨(i 0).val / 512, ht⟩ (1 : Fin 2) * 2048 + 2048
    omega

/-- The result array after the run. -/
theorem final (c : Dev nD) : (dats m 0 c).arrAt 4 cfg0.N = G m c :=
  (dats m 0 c).arrAt_eq_of_cover 4 (G m c) (fun t _ => flushed_eq m c t) cover

/-- The run, with the result array named: the map of the arguments; the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RunValue

end
-- ==== Proof.ReferenceValue.lean ====
/-
  What the idealized reference computes, read on the extended reals.

  Its run ends with the result at the composed term of its operations: the gate and up projections as two matrix
  products of `x`, the gate times `1 / (1 + e^(−gate))`, times the up projection, and that against the down weights.
  Entry by entry this is the gated feed-forward map `outMat x wg wu wd`: both printed dimension records are the plain
  `[M, K] × [K, N]` ones, and the quotient spelt out is the logistic function (`separate_apply`, `hostGate_apply`).
-/
import proofs.«153331_g47691316855583_cont_8to1_c_567_12_alg».proof.Proof.Gen.ReferenceIdeal.Run
import proofs.«153331_g47691316855583_cont_8to1_c_567_12_alg».proof.Proof.Fused

noncomputable section

namespace Cert.ReferenceIdeal.RefValue

open Cert.ReferenceIdeal Cert.ReferenceIdeal.Gen Idealize.ShloMosaic Idealize.ShloMosaic.ValueIdx
open Cert.GatedMlp Cert.Lib.Rowwise

/-- The run's result term is the gated feed-forward map of the arguments. -/
theorem result_eq (x : FVec Ideal S32768x2048 .f32) (wg wu : FVec Ideal S2048x768 .f32) (wd : FVec Ideal S768x2048 .f32) :
    Host.dotGeneral dot_S32768x768_S768x2048_S32768x2048_1_0_0_1_n_n none
      (mulf
        (mulf (Host.dotGeneral dot_S32768x2048_S2048x768_S32768x768_1_0_0_1_n_n none x wg)
          (Host.divf (broadcastInDim S32768x768 ![] bcast_S_S32768x768 (constant S_ .f32 0x3F800000#32))
            (addf (broadcastInDim S32768x768 ![] bcast_S_S32768x768 (constant S_ .f32 0x3F800000#32))
              (Host.exp (Host.negf (Host.dotGeneral dot_S32768x2048_S2048x768_S32768x768_1_0_0_1_n_n none x wg))))))
        (Host.dotGeneral dot_S32768x2048_S2048x768_S32768x768_1_0_0_1_n_n none x wu))
      wd
    = outMat x wg wu wd := by
  funext i
  obtain ⟨p, q, rfl⟩ : ∃ (p : Fin 32768) (q : Fin 2048), i = ix2 p q := ⟨i 0, i 1, eq_ix2 i⟩
  exact separate_apply dot_S32768x2048_S2048x768_S32768x768_1_0_0_1_n_n (eq_plain _ rfl rfl rfl rfl rfl rfl)
    dot_S32768x768_S768x2048_S32768x2048_1_0_0_1_n_n (eq_plain _ rfl rfl rfl rfl rfl rfl) none none x wg wu wd
    (hostGate bcast_S_S32768x768) (hostGate_apply bcast_S_S32768x768) p q

end Cert.ReferenceIdeal.RefValue

end
-- ==== Proof.lean ====
/-
  The certificate of a fused gated feed-forward kernel against its three-product reference, on the extended reals.

  The kernel walks 64 blocks of 512 rows of `x`. At the first block it copies the gate and up weights side by side
  into one scratch buffer and the down weights into another; at every block it multiplies the rows once against the
  side-by-side matrix, takes the left half times its logistic times the right half, and multiplies that against the
  down weights. The reference computes the gate and up projections separately, spells the logistic as
  `1 / (1 + e^(−g))`, and multiplies against the down weights.

  On the extended reals a change of float format is the identity, a matrix product into a zero accumulator is the
  plain finite sum, the logistic operation is by definition that quotient, and a column of the side-by-side product is
  a column of one of the two projections term by term. So both programs leave, at every entry `(r, q)`,
  `∑ₖ (g · σ(g) · u) · wd(k, q)` with `g = ∑ₗ x(r, l) · wg(l, k)`, `u = ∑ₗ x(r, l) · wu(l, k)`: the same sums of the same terms in
  the same order, no law of arithmetic needed, and nothing asked of the inputs.

  The three frames: the kernel's two are the generated ones; the reference's is its generated run with the result
  dropped. No rewrite was applied in idealizing the kernel, so that claim is trivial.
-/
import proofs.«153331_g47691316855583_cont_8to1_c_567_12_alg».proof.Defs
import proofs.«153331_g47691316855583_cont_8to1_c_567_12_alg».proof.Proof.Gen.Kernel
import proofs.«153331_g47691316855583_cont_8to1_c_567_12_alg».proof.Proof.Gen.Kernel.Skeleton
import proofs.«153331_g47691316855583_cont_8to1_c_567_12_alg».proof.Proof.Gen.Kernel.Launch
import proofs.«153331_g47691316855583_cont_8to1_c_567_12_alg».proof.Proof.Gen.Kernel.Points
import proofs.«153331_g47691316855583_cont_8to1_c_567_12_alg».proof.Proof.Gen.Kernel.Frame
import proofs.«153331_g47691316855583_cont_8to1_c_567_12_alg».proof.Proof.Gen.KernelIdeal
import proofs.«153331_g47691316855583_cont_8to1_c_567_12_alg».proof.Proof.Gen.KernelIdeal.Skeleton
import proofs.«153331_g47691316855583_cont_8to1_c_567_12_alg».proof.Proof.Gen.KernelIdeal.Launch
import proofs.«153331_g47691316855583_cont_8to1_c_567_12_alg».proof.Proof.Gen.KernelIdeal.Points
import proofs.«153331_g47691316855583_cont_8to1_c_567_12_alg».proof.Proof.Gen.KernelIdeal.Frame
import proofs.«153331_g47691316855583_cont_8to1_c_567_12_alg».proof.Proof.Gen.ReferenceIdeal
import proofs.«153331_g47691316855583_cont_8to1_c_567_12_alg».proof.Proof.Gen.KernelIdeal.Value
import proofs.«153331_g47691316855583_cont_8to1_c_567_12_alg».proof.Proof.Gen.ReferenceIdeal.Run
import proofs.«153331_g47691316855583_cont_8to1_c_567_12_alg».proof.Proof.Gen.Pre_finite_inputs
import proofs.«153331_g47691316855583_cont_8to1_c_567_12_alg».proof.Proof.KernelValue
import proofs.«153331_g47691316855583_cont_8to1_c_567_12_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result at the gated feed-forward map of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
